-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x729x1x3x3 : Shape := ⟨5, ![64, 729, 1, 3, 3]⟩
abbrev S729x1x3x3 : Shape := ⟨4, ![729, 1, 3, 3]⟩
abbrev S_ : Shape := ⟨0, ![]⟩

class Facts : Prop where
  bcast_S_S64x729x1x3x3 : S_.BroadcastsInDim S64x729x1x3x3 (![] : Fin 0 → Fin S64x729x1x3x3.rank)
  reducesTo_S64x729x1x3x3_S_d0_1_2_3_4 : S64x729x1x3x3.ReducesTo [0, 1, 2, 3, 4] S_
  h_S_ : 0 < S_.numel
  bcast_S_S729x1x3x3 : S_.BroadcastsInDim S729x1x3x3 (![] : Fin 0 → Fin S729x1x3x3.rank)
  reducesTo_S729x1x3x3_S_d0_1_2_3 : S729x1x3x3.ReducesTo [0, 1, 2, 3] S_

variable [Facts]

def fn {F : FTy → Type} [FloatOps F] (main_arg0 : FVec F S64x729x1x3x3 .f32) (main_arg1 : FVec F S729x1x3x3 .f32) : IVec S_ 1 :=
  let main_v0 : FVec F S64x729x1x3x3 .f32 := Host.absf main_arg0
  let main_cst : FVec F S_ .f32 := constant S_ .f32 0x7F800000#32
  let main_v1 : FVec F S64x729x1x3x3 .f32 := broadcastInDim S64x729x1x3x3 ![] bcast_S_S64x729x1x3x3 main_cst
  let main_v2 : IVec S64x729x1x3x3 1 := cmpf .olt main_v0 main_v1
  let main_c : IVec S_ 1 := constantI S_ 1 1#1
  let main_v3 : IVec S_ 1 := (fun x v => Host.reduce IntOp.andi x v reducesTo_S64x729x1x3x3_S_d0_1_2_3_4 h_S_) main_v2 main_c
  let main_v4 : FVec F S729x1x3x3 .f32 := Host.absf main_arg1
  let main_cst_0 : FVec F S_ .f32 := constant S_ .f32 0x7F800000#32
  let main_v5 : FVec F S729x1x3x3 .f32 := broadcastInDim S729x1x3x3 ![] bcast_S_S729x1x3x3 main_cst_0
  let main_v6 : IVec S729x1x3x3 1 := cmpf .olt main_v4 main_v5
  let main_c_1 : IVec S_ 1 := constantI S_ 1 1#1
  let main_v7 : IVec S_ 1 := (fun x v => Host.reduce IntOp.andi x v reducesTo_S729x1x3x3_S_d0_1_2_3 h_S_) main_v6 main_c_1
  let main_v8 : IVec S_ 1 := andi main_v3 main_v7
  main_v8
-- ==== Kernel.lean ====
abbrev S64x729x1x3x3 : Shape := ⟨5, ![64, 729, 1, 3, 3]⟩
abbrev S729x1x3x3 : Shape := ⟨4, ![729, 1, 3, 3]⟩
abbrev S64x729x729 : Shape := ⟨3, ![64, 729, 729]⟩
abbrev S4x729x729 : Shape := ⟨3, ![4, 729, 729]⟩
abbrev S729x729 : Shape := ⟨2, ![729, 729]⟩
abbrev S1x729x729 : Shape := ⟨3, ![1, 729, 729]⟩

abbrev nBuf : Space → Nat
  | .hbm => 3
  | .vmem => 2
  | .smem => 0
  | _ => 0

abbrev bufTy : (tb : Table) → Fin (tcTables nBuf tb) → BufTy
  | .hbm, ⟨0, _⟩ => ⟨S64x729x1x3x3, .f32⟩
  | .hbm, ⟨1, _⟩ => ⟨S729x1x3x3, .f32⟩
  | .hbm, ⟨2, _⟩ => ⟨S64x729x729, .f32⟩
  | .local _ .vmem, ⟨0, _⟩ => ⟨S4x729x729, .f32⟩
  | .local _ .vmem, ⟨1, _⟩ => ⟨S4x729x729, .f32⟩
  | _, _ => ⟨S64x729x1x3x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x729x729 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  iota_S729x729_d0_w32 : S729x729.Iotas .tc 32 [0]
  iota_S729x729_d1_w32 : S729x729.Iotas .tc 32 [1]
  natLt_1_32 : 1 < 32
  shapeCasts_S729x729_S1x729x729 : S729x729.ShapeCasts S1x729x729
  shapeCasts_S1x729x729_S1x729x729 : S1x729x729.ShapeCasts S1x729x729
  broadcasts_S1x729x729_S4x729x729 : S1x729x729.Broadcasts S4x729x729
  inb_S4x729x729_S4x729x729_0_0_0 : ∀ a, (![0, 0, 0] : Fin 3 → Nat) a + S4x729x729.size a ≤ S4x729x729.size a
  h_S4x729x729 : 0 < S4x729x729.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x729x729.size a ≤ S64x729x729.size a
  hwx0_0 : ∀ i : grid0.Coords, EltTy.bits .f32 = 32 ∨ (Rect.block (s := S64x729x729) S4x729x729.size (cc0_transform_0 i) (hinb0_0 i)).WholeWords (EltTy.packing .f32)

variable [Facts₀]

abbrev win0_0 : Pipeline.Window sig grid0 :=
  Pipeline.Window.ofSpec (Memref.whole main_v0) S4x729x729.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S64x729x1x3x3 : Shape := ⟨5, ![64, 729, 1, 3, 3]⟩
abbrev S729x1x3x3 : Shape := ⟨4, ![729, 1, 3, 3]⟩
abbrev S729x729 : Shape := ⟨2, ![729, 729]⟩
abbrev S_ : Shape := ⟨0, ![]⟩
abbrev S1x729x729 : Shape := ⟨3, ![1, 729, 729]⟩
abbrev S64x729x729 : Shape := ⟨3, ![64, 729, 729]⟩

abbrev nBuf : Space → Nat
  | .hbm => 11
  | .vmem => 0
  | .smem => 0
  | _ => 0

abbrev bufTy : (tb : Table) → Fin (tcTables nBuf tb) → BufTy
  | .hbm, ⟨0, _⟩ => ⟨S64x729x1x3x3, .f32⟩
  | .hbm, ⟨1, _⟩ => ⟨S729x1x3x3, .f32⟩
  | .hbm, ⟨2, _⟩ => ⟨S729x729, .i32⟩
  | .hbm, ⟨3, _⟩ => ⟨S729x729, .i32⟩
  | .hbm, ⟨4, _⟩ => ⟨S_, .i32⟩
  | .hbm, ⟨5, _⟩ => ⟨S729x729, .i32⟩
  | .hbm, ⟨6, _⟩ => ⟨S729x729, .i32⟩
  | .hbm, ⟨7, _⟩ => ⟨S729x729, .i1⟩
  | .hbm, ⟨8, _⟩ => ⟨S729x729, .f32⟩
  | .hbm, ⟨9, _⟩ => ⟨S1x729x729, .f32⟩
  | .hbm, ⟨10, _⟩ => ⟨S64x729x729, .f32⟩
  | _, _ => ⟨S64x729x1x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S_S729x729 : S_.BroadcastsInDim S729x729 (![] : Fin 0 → Fin S729x729.rank)
  bcast_S729x729_S1x729x729_1_2 : S729x729.BroadcastsInDim S1x729x729 (![1, 2] : Fin 2 → Fin S1x729x729.rank)
  bcast_S1x729x729_S64x729x729_0_1_2 : S1x729x729.BroadcastsInDim S64x729x729 (![0, 1, 2] : Fin 3 → Fin S64x729x729.rank)

variable [Facts₀]

class Facts : Prop extends Facts₀ where

variable [Facts]
-- ==== Proof.EyeSpec.lean ====
/-
  The identity pattern. Both programs fill an array of shape [64, 729, 729] with the 729 × 729 identity matrix, once per
  batch member: the entry at (b, n, v) is 1 when n = v and 0 otherwise, whatever the two argument arrays hold. This
  module states that array as one function of the index (`eye`) and reads, at the ideal values, the two spellings of one
  entry the programs use. Each program forms the bit of the comparison "row number = column number" of two 32-bit words.
  The reference converts that bit to a float read unsigned; the kernel first widens it to a 32-bit word and converts the
  word read signed. A widened bit is 0 or 1 and so non-negative, hence both conversions give the same real number, 0 or 1;
  and two numbers below 2³² are the same word exactly when they are the same number, so the bit is set exactly on the
  diagonal. No float arithmetic takes place, and nothing is asked of the argument arrays.
-/
import Idealize.ShloMosaic.PureOps.Ideal
import Idealize.ShloMosaic.Lib.ValueIdx
import Idealize.ShloMosaic.Lib.KernelVsHost

noncomputable section

namespace Cert.Eye

open Idealize.ShloMosaic

/-- Kronecker's delta as an extended real: 1 on the diagonal, 0 off it. -/
def delta (n v : ℕ) : EReal := if n = v then 1 else 0

/-- The batched identity: entry (b, n, v) is `delta n v`; the batch coordinate is not read. -/
def eye : (⟨3, ![64, 729, 729]⟩ : Shape).Idx → EReal := fun i => delta (i 1).val (i 2).val

/-- Numbers below 2³² are equal as 32-bit words exactly when they are equal. -/
theorem ofNat_beq {a b : ℕ} (ha : a < 2 ^ 32) (hb : b < 2 ^ 32) :
    (BitVec.ofNat 32 a == BitVec.ofNat 32 b) = decide (a = b) := by
  by_cases h : a = b
  · subst h; simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [h, hne]

/-- The comparison bit of two small numbers' words, read unsigned, is the delta as a natural number. -/
theorem toNat_cmpi_eq {a b : ℕ} (ha : a < 2 ^ 32) (hb : b < 2 ^ 32) :
    (IntOp.cmpi .eq (BitVec.ofNat 32 a) (BitVec.ofNat 32 b)).toNat = if a = b then 1 else 0 := by
  show (BitVec.ofBool (BitVec.ofNat 32 a == BitVec.ofNat 32 b)).toNat = _
  rw [ofNat_beq ha hb]
  by_cases h : a = b <;> simp [h]

/-- The reference's entry: the comparison bit converted unsigned is the delta. -/
theorem uitofp_cmpi_eq {a b : ℕ} (ha : a < 2 ^ 32) (hb : b < 2 ^ 32) :
    (FloatOps.uitofp (F := Ideal) .f32 (IntOp.cmpi .eq (BitVec.ofNat 32 a) (BitVec.ofNat 32 b)) : EReal) = delta a b := by
  show ((((IntOp.cmpi .eq (BitVec.ofNat 32 a) (BitVec.ofNat 32 b)).toNat : ℕ) : ℝ) : EReal) = delta a b
  rw [toNat_cmpi_eq ha hb]
  unfold delta
  by_cases h : a = b <;> simp [h]

/-- The kernel's entry: the comparison bit widened to a word and converted signed is the same delta. -/
theorem sitofp_extui_cmpi_eq {a b : ℕ} (ha : a < 2 ^ 32) (hb : b < 2 ^ 32) :
    (FloatOps.sitofp (F := Ideal) .f32 ((IntOp.cmpi .eq (BitVec.ofNat 32 a) (BitVec.ofNat 32 b)).setWidth 32) : EReal)
      = delta a b := by
  show (((((IntOp.cmpi .eq (BitVec.ofNat 32 a) (BitVec.ofNat 32 b)).setWidth 32).toInt : ℤ) : ℝ) : EReal) = delta a b
  rw [toInt_setWidth_bit, toNat_cmpi_eq ha hb]
  unfold delta
  by_cases h : a = b <;> simp [h]

end Cert.Eye

end
-- ==== Proof.KernelEye.lean ====
/-
  The kernel's result is the batched identity. At each of the 16 grid points the body builds the 729 × 729 matrix whose
  entry (n, v) is the bit of "row number n = column number v" (two iotas compared as 32-bit words), widened to a word and
  converted to a float; it gives the matrix a leading unit axis, copies it to 4 batch members, and stores the whole
  [4, 729, 729] block. Point t writes that block back at batch rows 4t … 4t + 3 of the [64, 729, 729] array, all rows and
  columns. The stored block does not depend on the point or on the batch coordinate, and its entry (·, n, v) is the delta of
  n and v, so each block is the batched identity restricted to its rows; the 16 blocks cover every index (batch row r lies
  in block r / 4), hence the array ends at the batched identity.
-/
import proofs.«103937_j40656160424267_1_alg».proof.Proof.KernelIdealValuePatched
import proofs.«103937_j40656160424267_1_alg».proof.Proof.EyeSpec

set_option maxRecDepth 16384

noncomputable section

namespace Cert.KernelIdeal.EyeValue

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The stored block at (a, n, v): the delta of n and v, whatever the batch coordinate a. -/
theorem pay_apply (j : S4x729x729.Idx) : (k0_pay1 (F := Ideal) j : EReal) = Cert.Eye.delta (j 1).val (j 2).val := by
  have h1 : (j 1).val < 729 := (j 1).isLt
  have h2 : (j 2).val < 729 := (j 2).isLt
  unfold k0_pay1
  dsimp only
  -- the shape cast to the same shape is the identity
  rw [shapeCast_self]
  -- the copy to 4 batch members reads the one-member block at (0, n, v)
  refine (broadcastTo_apply _ broadcasts_S1x729x729_S4x729x729 j (ix3 ⟨0, Nat.one_pos⟩ (j 1) (j 2)) (fun a => ?_)).trans ?_
  · match a with
    | ⟨0, _⟩ => show 0 = if (1 : Nat) = 1 then 0 else (j 0).val; rw [if_pos rfl]
    | ⟨1, _⟩ => show (j 1).val = if (729 : Nat) = 1 then 0 else (j 1).val; rw [if_neg (by decide)]
    | ⟨2, _⟩ => show (j 2).val = if (729 : Nat) = 1 then 0 else (j 2).val; rw [if_neg (by decide)]
  -- the added unit axis reads the matrix at (n, v)
  refine (shapeCast_addUnit_apply ![729, 729] _ shapeCasts_S729x729_S1x729x729 _).trans ?_
  -- the matrix entry: the compared iotas' bit, widened and converted
  show (FloatOps.sitofp (F := Ideal) .f32
      ((IntOp.cmpi .eq (iota .tc S729x729 32 [0] iota_S729x729_d0_w32 (ix2 (j 1) (j 2)))
        (iota .tc S729x729 32 [1] iota_S729x729_d1_w32 (ix2 (j 1) (j 2)))).setWidth 32) : EReal) = _
  rw [iota_single_apply, iota_single_apply]
  exact Cert.Eye.sitofp_extui_cmpi_eq (a := (j 1).val) (b := (j 2).val) (by omega) (by omega)

theorem offsets_zero : (![0, 0, 0] : Fin 3 → Nat) = fun _ => 0 := funext fun a => by fin_cases a <;> rfl

/-- The printed index map, decided over the 16 grid points: point t's block index is (t, 0, 0). -/
theorem idx_facts : ∀ t : Fin cfg0.N, win0_0.index t (0 : Fin 3) = t.val ∧ win0_0.index t (1 : Fin 3) = 0
    ∧ win0_0.index t (2 : Fin 3) = 0 :=
  (by decide +kernel : ∀ t : Fin grid0.N, _)

/-- What point t writes back is block t of the batched identity. -/
theorem flushed_eq (c : Dev nD) (t : Fin cfg0.N) :
    (dats m 0 c).flushed 0 t = ((cfg0.win 0).blk t).view.read (Elt Ideal) (Cert.Eye.eye : S64x729x729.Idx → Elt Ideal .f32) := by
  rw [flushed0]
  unfold out0_0
  rw [View.canon_unit_zero offsets_zero]
  obtain ⟨e0, e1, e2⟩ := idx_facts t
  funext y
  show (k0_pay1 (F := Ideal) y : EReal) = Cert.Eye.eye (((cfg0.win 0).blk t).view.emb y)
  refine (pay_apply y).trans ?_
  -- a block's coordinate is its block index times the block's extent plus the coordinate inside the block; on the row
  -- and column axes the block index is 0, so the array's row and column are the block's
  have c1 : ((((cfg0.win 0).blk t).view.emb y) 1).val = (y 1).val := by
    show win0_0.index t (1 : Fin 3) * 729 + 1 * (y 1).val = (y 1).val
    omega
  have c2 : ((((cfg0.win 0).blk t).view.emb y) 2).val = (y 2).val := by
    show win0_0.index t (2 : Fin 3) * 729 + 1 * (y 2).val = (y 2).val
    omega
  show Cert.Eye.delta (y 1).val (y 2).val
    = Cert.Eye.delta ((((cfg0.win 0).blk t).view.emb y) 1).val ((((cfg0.win 0).blk t).view.emb y) 2).val
  rw [c1, c2]

/-- An index of the array is in point t's block exactly when each coordinate is in the block's range on its axis. -/
theorem mem_blk (t : Fin cfg0.N) (i : S64x729x729.Idx) :
    i ∈ ((cfg0.win 0).blk t).view.set ↔ ∀ a : Fin 3, win0_0.index t a * S4x729x729.size a ≤ (i a).val
      ∧ (i a).val < win0_0.index t a * S4x729x729.size a + S4x729x729.size a := by
  show i ∈ ((View.whole main_v0).slice (win0_0.rect t)).set ↔ _
  rw [View.set_slice_whole, Rect.mem_set_unit]
  exact Iff.rfl

/-- Every index is in some point's block: batch row r lies in the block of point r / 4, which spans all rows and columns. -/
theorem cover (i : S64x729x729.Idx) :
    ∃ t : Fin cfg0.N, (cfg0.win 0).flush t = true ∧ i ∈ ((cfg0.win 0).blk t).view.set := by
  have hi0 : (i 0).val < 64 := (i 0).isLt
  have hi1 : (i 1).val < 729 := (i 1).isLt
  have hi2 : (i 2).val < 729 := (i 2).isLt
  let t : Fin cfg0.N := ⟨(i 0).val / 4, by show (i 0).val / 4 < 16; omega⟩
  obtain ⟨e0, e1, e2⟩ := idx_facts t
  have ht : t.val = (i 0).val / 4 := rfl
  refine ⟨t, flush0_0 t, ?_⟩
  rw [mem_blk]
  intro a
  match a with
  | ⟨0, _⟩ => show win0_0.index t (0 : Fin 3) * 4 ≤ (i 0).val ∧ (i 0).val < win0_0.index t (0 : Fin 3) * 4 + 4; omega
  | ⟨1, _⟩ => show win0_0.index t (1 : Fin 3) * 729 ≤ (i 1).val ∧ (i 1).val < win0_0.index t (1 : Fin 3) * 729 + 729; omega
  | ⟨2, _⟩ => show win0_0.index t (2 : Fin 3) * 729 ≤ (i 2).val ∧ (i 2).val < win0_0.index t (2 : Fin 3) * 729 + 729; omega

/-- The array after the run is the batched identity. -/
theorem final (c : Dev nD) : (dats m 0 c).arrAt 0 cfg0.N = (Cert.Eye.eye : S64x729x729.Idx → Elt Ideal .f32) :=
  (dats m 0 c).arrAt_eq_of_cover 0 _ (fun t _ => flushed_eq m c t) cover

/-- The kernel's run, read: every weakly fair execution ends with the result array at the batched identity and the two
    argument arrays as they were. -/
theorem run : θ_run defs (onTc (τ := τ) (main (F := Ideal))) ⟨m, fun _ => 0, ρ⟩ fun r => ∀ c : Dev nD,
      r.2.mem ((c : Thread nD τ).loc main_v0) = (Cert.Eye.eye : S64x729x729.Idx → Elt Ideal .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.EyeValue

end
-- ==== Proof.ReferenceEye.lean ====
/-
  The reference's result is the batched identity. Its program forms the row number and the column number of each entry
  of a 729 × 729 matrix as 32-bit words, adds a zero word to the row number, compares the two words for equality,
  converts the comparison's bit to a float, and copies the matrix to every batch member through two broadcasts. Read at an
  index (b, n, v), the broadcasts lead to the matrix entry (n, v); adding the zero word changes nothing; and the
  converted bit is 1 exactly when n = v, both numbers being below 729.
-/
import proofs.«103937_j40656160424267_1_alg».proof.Proof.Gen.ReferenceIdeal.Read
import proofs.«103937_j40656160424267_1_alg».proof.Proof.EyeSpec

noncomputable section

namespace Cert.ReferenceIdeal.RefValue

open Cert.ReferenceIdeal Cert.ReferenceIdeal.Read Idealize.ShloMosaic

/-- The reference's last stage, at the ideal values, is the batched identity, index by index. -/
theorem result_eq : (val_main_v7 (F := Ideal) : S64x729x729.Idx → EReal) = Cert.Eye.eye := by
  funext i
  have h1 : (i 1).val < 729 := (i 1).isLt
  have h2 : (i 2).val < 729 := (i 2).isLt
  rw [val_main_v7_apply, val_main_v6_apply, val_main_v5_apply, val_main_v4_apply, val_main_v3_apply,
    val_main_v0_apply, val_main_v2_apply, val_main_c_apply, val_main_v1_apply]
  show (FloatOps.uitofp (F := Ideal) .f32
      (IntOp.cmpi .eq (IntOp.addi (BitVec.ofNat 32 (i 1).val) 0#32) (BitVec.ofNat 32 (i 2).val)) : EReal)
    = Cert.Eye.delta (i 1).val (i 2).val
  rw [show IntOp.addi (BitVec.ofNat 32 (i 1).val) 0#32 = BitVec.ofNat 32 (i 1).val from BitVec.add_zero _]
  exact Cert.Eye.uitofp_cmpi_eq (by omega) (by omega)

end Cert.ReferenceIdeal.RefValue

end
-- ==== Proof.lean ====
/-
  The proof of `Cert.Claim`: the kernel and its reference both return the 729 × 729 identity matrix copied to each of 64
  batch members, as an array of shape [64, 729, 729]; neither reads its two argument arrays.

  The mathematics. Entry (b, n, v) of either result is 1 when n = v and 0 otherwise (`Cert.Eye.eye`, Proof/EyeSpec.lean).
  The reference compares the row number plus a zero word with the column number, as 32-bit words, and converts the
  comparison's bit read unsigned; the kernel compares the same two numbers, widens the bit to a 32-bit word and converts it
  read signed. A widened bit is 0 or 1, so the two conversions agree, and numbers below 729 are equal as words exactly when
  they are equal: both entries are Kronecker's delta (Proof/EyeSpec.lean). The reference reaches every batch member by two
  broadcasts (Proof/ReferenceEye.lean). The kernel runs on a grid of 16 points; each stores one block of 4 batch members,
  the same matrix in each, and point t's block is written back at batch rows 4t … 4t + 3, so the 16 blocks cover the
  array and it ends at the batched identity (Proof/KernelEye.lean). The values are the exact reals 0 and 1 and no float
  arithmetic is done, so nothing is asked of the inputs: the precondition is never opened.

  The claims. The three frames: each program terminates without a fault and leaves its argument arrays unchanged — for the
  two kernel programs by their frame certificates, for the reference by its run with the result dropped. The idealized
  kernel is the kernel's own text read at the ideal values (no rewrite was applied), so that conjunct is `True`. The
  value claim: both idealized programs, from memories that agree on the arguments, end with the batched identity.
-/
import proofs.«103937_j40656160424267_1_alg».proof.Defs
import proofs.«103937_j40656160424267_1_alg».proof.Proof.Gen.Kernel
import proofs.«103937_j40656160424267_1_alg».proof.Proof.Gen.KernelIdeal
import proofs.«103937_j40656160424267_1_alg».proof.Proof.Gen.ReferenceIdeal
import proofs.«103937_j40656160424267_1_alg».proof.Proof.Gen.Pre_finite_inputs
import proofs.«103937_j40656160424267_1_alg».proof.Proof.KernelFramePatched
import proofs.«103937_j40656160424267_1_alg».proof.Proof.KernelEye
import proofs.«103937_j40656160424267_1_alg».proof.Proof.ReferenceEye
import Idealize.ShloMosaic.Adequacy
import Idealize.ShloMosaic.Init

noncomputable section

namespace Cert.Proof

open Idealize.ShloMosaic Idealize.SL.Sem

/-- The kernel as printed terminates, faults nowhere and leaves its arguments unchanged. -/
theorem frame_kernel : Cert.frame_Kernel := fun m ρ _ => Cert.Kernel.GenP.frame m ρ

/-- The same of the kernel read at the ideal values. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- Both idealized programs end with the batched identity: the kernel's array block by block, the reference's last stage
    index by index. The arguments' agreement is not used, since neither result depends on them. -/
theorem algebraic : Cert.algebraic_KernelIdeal_ReferenceIdeal := by
  intro m ρ m' ρ' _ _
  refine ⟨fun _ => Cert.Eye.eye, Cert.KernelIdeal.EyeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  exact Cert.ReferenceIdeal.RefValue.result_eq

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
